-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1000000 32) (main_arg2 : IVec S1000000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S2000x64 : Shape := ⟨2, ![2000, 64]⟩
abbrev S2000x1 : Shape := ⟨2, ![2000, 1]⟩
abbrev S1000000x64 : Shape := ⟨2, ![1000000, 64]⟩
abbrev S1x64 : Shape := ⟨2, ![1, 64]⟩

abbrev nBuf : Space → Nat
  | .hbm => 49
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1000000, .f32⟩
  | .hbm, ⟨7, _⟩ => ⟨S_, .f32⟩
  | .hbm, ⟨8, _⟩ => ⟨S100000, .f32⟩
  | .hbm, ⟨9, _⟩ => ⟨S1000000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x1, .f32⟩
  | .hbm, ⟨19, _⟩ => ⟨S100000x64, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .f32⟩
  | .hbm, ⟨30, _⟩ => ⟨S100000x64, .f32⟩
  | .hbm, ⟨31, _⟩ => ⟨S1000000x1, .i32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x64, .f32⟩
  | .hbm, ⟨43, _⟩ => ⟨S_, .f32⟩
  | .hbm, ⟨44, _⟩ => ⟨S100000x64, .f32⟩
  | .hbm, ⟨45, _⟩ => ⟨S1000000x1, .i32⟩
  | .hbm, ⟨46, _⟩ => ⟨S100000x64, .f32⟩
  | .hbm, ⟨47, _⟩ => ⟨S1x64, .f32⟩
  | .hbm, ⟨48, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x1, .f32⟩
  | .local _ .vmem, ⟨9, _⟩ => ⟨S2000x1, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x1, .f32⟩
  | .local _ .vmem, ⟨15, _⟩ => ⟨S2000x1, .f32⟩
  | .local _ .vmem, ⟨16, _⟩ => ⟨S64x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bcast_S_S100000x64 : S_.BroadcastsInDim S100000x64 (![] : Fin 0 → Fin S100000x64.rank)
  shapeCasts_S2000x64_S2000x64 : S2000x64.ShapeCasts S2000x64
  shapeCasts_S64_S1x64 : S64.ShapeCasts S1x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v31) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩

abbrev nBuf : Space → Nat
  | .hbm => 56
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1000000, .f32⟩
  | .hbm, ⟨7, _⟩ => ⟨S_, .f32⟩
  | .hbm, ⟨8, _⟩ => ⟨S100000, .f32⟩
  | .hbm, ⟨9, _⟩ => ⟨S1000000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x64, .f32⟩
  | .hbm, ⟨19, _⟩ => ⟨S100000x64, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .f32⟩
  | .hbm, ⟨30, _⟩ => ⟨S100000x64, .f32⟩
  | .hbm, ⟨31, _⟩ => ⟨S1000000x1, .i32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S_, .f32⟩
  | .hbm, ⟨47, _⟩ => ⟨S100000x64, .f32⟩
  | .hbm, ⟨48, _⟩ => ⟨S1000000x1, .i32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  Two rounds of normalised neighbourhood aggregation followed by a dense layer, as plain functions on index-by-index
  arrays of extended reals.

  With `n` the column of per-node factors (one per row), a round is: scale row `r` of the features by `n r`, aggregate
  over the edges (an operation both programs apply in the same words, so it stays a parameter here), scale row `r` by
  `n r` again. The two programs differ in how the scaling between the two aggregations is grouped: one scales twice by
  `n`, the other once by `n * n`. Multiplication of extended reals is associative (also at the infinities), so the two
  groupings agree: `scaleRows_scaleRows`. The dense layer contracts the 64 columns against a 64×64 matrix and adds a
  bias row.
-/
import Idealize.ShloMosaic.PureOps.Ideal
import Idealize.ShloMosaic.Lib.ValueIdx

noncomputable section

open scoped BigOperators

namespace NeighbourRounds

open Idealize.ShloMosaic Idealize.ShloMosaic.ValueIdx

/-- The node features: one row of 64 entries per node. -/
abbrev Feat : Shape := ⟨2, ![100000, 64]⟩
/-- One factor per node, kept as a column. -/
abbrev Factor : Shape := ⟨2, ![100000, 1]⟩
/-- The dense layer's matrix. -/
abbrev Mat : Shape := ⟨2, ![64, 64]⟩
/-- The dense layer's bias, kept as a row. -/
abbrev BiasRow : Shape := ⟨2, ![1, 64]⟩

/-- Row `r` of `x` times the `r`-th factor. -/
def scaleRows (x : Feat.Idx → EReal) (n : Factor.Idx → EReal) : Feat.Idx → EReal :=
  fun i => x i * n (ix2 (i 0) (0 : Fin 1))

/-- Entry `(r, c)` of the dense layer: the sum over `k` of `x (r, k) * w (k, c)`, plus the bias at `c`. -/
def dense (x : Feat.Idx → EReal) (w : Mat.Idx → EReal) (b : BiasRow.Idx → EReal) : Feat.Idx → EReal :=
  fun i => (∑ k : Fin 64, x (ix2 (i 0) k) * w (ix2 k (i 1))) + b (ix2 (0 : Fin 1) (i 1))

/-- Scaling the rows twice by `n` is scaling them once by the entrywise square of `n`: associativity of the product of
    extended reals, which needs no finiteness. -/
theorem scaleRows_scaleRows (x : Feat.Idx → EReal) (n : Factor.Idx → EReal) :
    scaleRows (scaleRows x n) n = scaleRows x (fun j => n j * n j) :=
  funext fun i => mul_assoc (x i) (n (ix2 (i 0) (0 : Fin 1))) (n (ix2 (i 0) (0 : Fin 1)))

end NeighbourRounds

end
-- ==== Proof.ScaleFirst.lean ====
/-
  A row-scaling call: the features it finds, each row scaled by the entry of the factor column it finds for that row.

  The call walks the 100000 rows in 50 blocks of 2000 rows. At block `t` its body multiplies the 2000×64 block of the
  features by the 2000×1 block of the factor column, the factor of a row repeated along the row's 64 columns, and the
  block written back is the corresponding block of the result. The three index maps send point `t` to block row `t`,
  so entry `(2000 t + p, q)` of the result is the feature there times entry `2000 t + p` of the column; the 50 blocks
  tile the array, so after the call the whole result array is `scaleRows` of the two arrays the call found on entry.
-/
import proofs.«106002_j90108413870524_1_alg».proof.Proof.Gen.KernelIdeal.Frame
import proofs.«106002_j90108413870524_1_alg».proof.Proof.Spec
import Idealize.ShloMosaic.Lib.Pipeline.Value
import Idealize.ShloMosaic.Lib.ValueIdx

set_option maxRecDepth 16384

noncomputable section

namespace Cert.KernelIdeal.ScaleFirst

open Cert.KernelIdeal Cert.KernelIdeal.Gen NeighbourRounds
open Idealize.ShloMosaic Idealize.ShloMosaic.TcCoe Idealize.ShloMosaic.ValueIdx Idealize.SL.Sem
open Idealize.ShloMosaic.Pipeline (Dat Cfg Window)

-- the buffer contents the call is entered from
variable (V : (c : Dev nD) → (b : Ref sig .tc) → Buf (Elt Ideal) ((c : Thread nD τ).loc b))

/-- The features and the factor column the call finds, as arrays of extended reals. -/
abbrev feats (c : Dev nD) : Feat.Idx → EReal := V c main_arg0
abbrev factors (c : Dev nD) : Factor.Idx → EReal := V c main_v8

theorem origin : (![0, 0] : Fin 2 → Nat) = fun _ => 0 := funext fun a => by fin_cases a <;> rfl

/-- The body's stored value at row `p`, column `q` of a block: the feature there times the row's factor (the column
    of factors is broadcast along the 64 columns, so every column reads entry `(p, 0)`). -/
theorem scaled_at (x : Vec Ideal S2000x64 .f32) (n : Vec Ideal S2000x1 .f32) (p : Fin 2000) (q : Fin 64) :
    k0_pay1 (F := Ideal) x n (ix2 p q) = x (ix2 p q) * n (ix2 p (0 : Fin 1)) := by
  unfold k0_pay1
  simp only [shapeCast_self]
  exact congrArg (x (ix2 p q) * ·) (broadcastTo_apply n broadcasts_S2000x1_S2000x64 (ix2 p q) (ix2 p (0 : Fin 1)) (fun a => by
    match a with
    | ⟨0, _⟩ => rfl
    | ⟨1, _⟩ => rfl))

/-- The three index maps over the 50 points: the feature block, the factor block and the result block of point `t`
    all sit at block row `t`, block column 0. -/
theorem block_rows : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the row-scaled array. -/
theorem written_back (c : Dev nD) (t : Fin cfg0.N) :
    (dat0 V c).flushed 2 t
      = ((cfg0.win 2).blk t).view.read (Elt Ideal) (scaleRows (V c main_arg0) (V c main_v8)) := by
  show (cfg0.win 2).cut (grid0.coords t) ((dat0 V c).after 2 t) = _
  rw [after0_2]
  unfold out0_2
  rw [View.canon_unit_zero origin]
  simp only [View.ld_unit_zero (S := S2000x64) origin, View.ld_unit_zero (S := S2000x1) origin]
  funext j
  obtain ⟨p, q, rfl⟩ : ∃ (p : Fin 2000) (q : Fin 64), j = ix2 p q := ⟨j 0, j 1, eq_ix2 j⟩
  refine (scaled_at (iblk0 V c 0 t) (iblk0 V c 1 t) p q).trans ?_
  obtain ⟨e0, e1, e2, e3, e4, e5⟩ := block_rows t
  show feats V c (((cfg0.win 0).blk t).view.emb (ix2 p q)) * factors V c (((cfg0.win 1).blk t).view.emb (ix2 p (0 : Fin 1)))
     = feats V c (((cfg0.win 2).blk t).view.emb (ix2 p q))
        * factors V c (ix2 ((((cfg0.win 2).blk t).view.emb (ix2 p q)) 0) (0 : Fin 1))
  -- the feature block and the result block of point t are the same rectangle of rows and columns
  have hx : ((cfg0.win 0).blk t).view.emb (ix2 p q) = ((cfg0.win 2).blk t).view.emb (ix2 p q) := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 64 + 1 * q.val = win0_2.index t (1 : Fin 2) * 64 + 1 * q.val; omega
  -- the factor block's row p is the column's entry for the same row of the array
  have hn : ((cfg0.win 1).blk t).view.emb (ix2 p (0 : Fin 1))
      = ix2 ((((cfg0.win 2).blk t).view.emb (ix2 p q)) 0) (0 : Fin 1) := by
    funext a; apply Fin.ext
    match a with
    | ⟨0, _⟩ => show win0_1.index t (0 : Fin 2) * 2000 + 1 * p.val = win0_2.index t (0 : Fin 2) * 2000 + 1 * p.val; omega
    | ⟨1, _⟩ => show win0_1.index t (1 : Fin 2) * 1 + 1 * 0 = 0; omega
  rw [hx, hn]
  rfl

/-- An index lies in point `t`'s result block iff each coordinate lies in the block's range on its axis. -/
theorem in_block (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v10).slice (win0_2.rect t)).set ↔ _
  rw [View.set_slice_whole, Rect.mem_set_unit]
  exact Iff.rfl

/-- Row `r` lies in the block of point `r / 2000`: the 50 blocks tile the 100000 rows. -/
theorem tiled (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨e0, e1, e2, e3, e4, e5⟩ := block_rows t
  refine ⟨t, flush0_2 t, ?_⟩
  rw [in_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the call its result array is the features it found, each row scaled by the entry of the factor column it
    found for that row. -/
theorem result (c : Dev nD) : (dat0 V c).arrAt 2 cfg0.N = scaleRows (V c main_arg0) (V c main_v8) :=
  (dat0 V c).arrAt_eq_of_cover 2 _ (fun t _ => written_back V c t) tiled

end Cert.KernelIdeal.ScaleFirst

end
-- ==== Proof.ScaleSecond.lean ====
/-
  A row-scaling call: the features it finds, each row scaled by the entry of the factor column it finds for that row.

  The call walks the 100000 rows in 50 blocks of 2000 rows. At block `t` its body multiplies the 2000×64 block of the
  features by the 2000×1 block of the factor column, the factor of a row repeated along the row's 64 columns, and the
  block written back is the corresponding block of the result. The three index maps send point `t` to block row `t`,
  so entry `(2000 t + p, q)` of the result is the feature there times entry `2000 t + p` of the column; the 50 blocks
  tile the array, so after the call the whole result array is `scaleRows` of the two arrays the call found on entry.
-/
import proofs.«106002_j90108413870524_1_alg».proof.Proof.Gen.KernelIdeal.Frame
import proofs.«106002_j90108413870524_1_alg».proof.Proof.Spec
import Idealize.ShloMosaic.Lib.Pipeline.Value
import Idealize.ShloMosaic.Lib.ValueIdx

set_option maxRecDepth 16384

noncomputable section

namespace Cert.KernelIdeal.ScaleSecond

open Cert.KernelIdeal Cert.KernelIdeal.Gen NeighbourRounds
open Idealize.ShloMosaic Idealize.ShloMosaic.TcCoe Idealize.ShloMosaic.ValueIdx Idealize.SL.Sem
open Idealize.ShloMosaic.Pipeline (Dat Cfg Window)

-- the buffer contents the call is entered from
variable (V : (c : Dev nD) → (b : Ref sig .tc) → Buf (Elt Ideal) ((c : Thread nD τ).loc b))

/-- The features and the factor column the call finds, as arrays of extended reals. -/
abbrev feats (c : Dev nD) : Feat.Idx → EReal := V c main_v20
abbrev factors (c : Dev nD) : Factor.Idx → EReal := V c main_v9

theorem origin : (![0, 0] : Fin 2 → Nat) = fun _ => 0 := funext fun a => by fin_cases a <;> rfl

/-- The body's stored value at row `p`, column `q` of a block: the feature there times the row's factor (the column
    of factors is broadcast along the 64 columns, so every column reads entry `(p, 0)`). -/
theorem scaled_at (x : Vec Ideal S2000x64 .f32) (n : Vec Ideal S2000x1 .f32) (p : Fin 2000) (q : Fin 64) :
    k1_pay1 (F := Ideal) x n (ix2 p q) = x (ix2 p q) * n (ix2 p (0 : Fin 1)) := by
  unfold k1_pay1
  simp only [shapeCast_self]
  exact congrArg (x (ix2 p q) * ·) (broadcastTo_apply n broadcasts_S2000x1_S2000x64 (ix2 p q) (ix2 p (0 : Fin 1)) (fun a => by
    match a with
    | ⟨0, _⟩ => rfl
    | ⟨1, _⟩ => rfl))

/-- The three index maps over the 50 points: the feature block, the factor block and the result block of point `t`
    all sit at block row `t`, block column 0. -/
theorem block_rows : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (1 : Fin 2) = 0
    ∧ win1_2.index t (0 : Fin 2) = t.val :=
  (by decide +kernel : ∀ t : Fin grid1.N, _)

/-- What point `t` writes back is block `t` of the row-scaled array. -/
theorem written_back (c : Dev nD) (t : Fin cfg1.N) :
    (dat1 V c).flushed 2 t
      = ((cfg1.win 2).blk t).view.read (Elt Ideal) (scaleRows (V c main_v20) (V c main_v9)) := by
  show (cfg1.win 2).cut (grid1.coords t) ((dat1 V c).after 2 t) = _
  rw [after1_2]
  unfold out1_2
  rw [View.canon_unit_zero origin]
  simp only [View.ld_unit_zero (S := S2000x64) origin, View.ld_unit_zero (S := S2000x1) origin]
  funext j
  obtain ⟨p, q, rfl⟩ : ∃ (p : Fin 2000) (q : Fin 64), j = ix2 p q := ⟨j 0, j 1, eq_ix2 j⟩
  refine (scaled_at (iblk1 V c 0 t) (iblk1 V c 1 t) p q).trans ?_
  obtain ⟨e0, e1, e2, e3, e4, e5⟩ := block_rows t
  show feats V c (((cfg1.win 0).blk t).view.emb (ix2 p q)) * factors V c (((cfg1.win 1).blk t).view.emb (ix2 p (0 : Fin 1)))
     = feats V c (((cfg1.win 2).blk t).view.emb (ix2 p q))
        * factors V c (ix2 ((((cfg1.win 2).blk t).view.emb (ix2 p q)) 0) (0 : Fin 1))
  -- the feature block and the result block of point t are the same rectangle of rows and columns
  have hx : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * q.val = win1_2.index t (1 : Fin 2) * 64 + 1 * q.val; omega
  -- the factor block's row p is the column's entry for the same row of the array
  have hn : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 2000 + 1 * p.val = win1_2.index t (0 : Fin 2) * 2000 + 1 * p.val; omega
    | ⟨1, _⟩ => show win1_1.index t (1 : Fin 2) * 1 + 1 * 0 = 0; omega
  rw [hx, hn]
  rfl

/-- An index lies in point `t`'s result block iff each coordinate lies in the block's range on its axis. -/
theorem in_block (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v21).slice (win1_2.rect t)).set ↔ _
  rw [View.set_slice_whole, Rect.mem_set_unit]
  exact Iff.rfl

/-- Row `r` lies in the block of point `r / 2000`: the 50 blocks tile the 100000 rows. -/
theorem tiled (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨e0, e1, e2, e3, e4, e5⟩ := block_rows t
  refine ⟨t, flush1_2 t, ?_⟩
  rw [in_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After the call its result array is the features it found, each row scaled by the entry of the factor column it
    found for that row. -/
theorem result (c : Dev nD) : (dat1 V c).arrAt 2 cfg1.N = scaleRows (V c main_v20) (V c main_v9) :=
  (dat1 V c).arrAt_eq_of_cover 2 _ (fun t _ => written_back V c t) tiled

end Cert.KernelIdeal.ScaleSecond

end
-- ==== Proof.DenseLast.lean ====
/-
  The last call: the second round's aggregate, each row scaled by its node's factor, through the dense layer.

  The call walks the 100000 rows in 50 blocks of 2000 rows; the 64×64 matrix and the 1×64 bias row are the same
  block at every point. At block `t` the body scales the 2000×64 block of features by its 2000×1 block of factors,
  contracts the 64 columns against the matrix into a zero accumulator, and adds the bias row repeated down the 2000
  rows. Over the extended reals the two narrowings to a shorter float format are the identity and the contraction is
  the plain sum over the 64 columns, so entry `(2000 t + p, q)` of the result is `dense` of the row-scaled features.
  The 50 result blocks tile the array.
-/
import proofs.«106002_j90108413870524_1_alg».proof.Proof.Gen.KernelIdeal.Frame
import proofs.«106002_j90108413870524_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DenseLast

open Cert.KernelIdeal Cert.KernelIdeal.Gen NeighbourRounds
open Idealize.ShloMosaic Idealize.ShloMosaic.TcCoe Idealize.ShloMosaic.ValueIdx Idealize.SL.Sem
open Idealize.ShloMosaic.Pipeline (Dat Cfg Window)

-- the buffer contents the call is entered from
variable (V : (c : Dev nD) → (b : Ref sig .tc) → Buf (Elt Ideal) ((c : Thread nD τ).loc b))

/-- The four arrays the call finds, as arrays of extended reals. -/
abbrev feats (c : Dev nD) : Feat.Idx → EReal := V c main_v31
abbrev factors (c : Dev nD) : Factor.Idx → EReal := V c main_v8
abbrev weights (c : Dev nD) : Mat.Idx → EReal := V c main_arg3
abbrev bias (c : Dev nD) : BiasRow.Idx → EReal := V c main_v32

theorem origin : (![0, 0] : Fin 2 → Nat) = fun _ => 0 := funext fun a => by fin_cases a <;> rfl

/-! ## The contraction's operand indices: output entry `(p, q)` and contraction index `k` read the left operand at
    `(p, k)` and the right at `(k, q)` -/

theorem left_row (i : S2000x64.Idx) (r : dot_S2000x64_S64x64_S2000x64_1_0_0_1_n_n.contr.Idx) :
    (dot_S2000x64_S64x64_S2000x64_1_0_0_1_n_n.lhsIdx i r 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem left_col (i : S2000x64.Idx) (r : dot_S2000x64_S64x64_S2000x64_1_0_0_1_n_n.contr.Idx) :
    (dot_S2000x64_S64x64_S2000x64_1_0_0_1_n_n.lhsIdx i r 1).val = (r ⟨0, by decide⟩).val :=
  dot_S2000x64_S64x64_S2000x64_1_0_0_1_n_n.lhsIdx_val_of_single rfl i r
theorem right_row (i : S2000x64.Idx) (r : dot_S2000x64_S64x64_S2000x64_1_0_0_1_n_n.contr.Idx) :
    (dot_S2000x64_S64x64_S2000x64_1_0_0_1_n_n.rhsIdx i r 0).val = (r ⟨0, by decide⟩).val :=
  dot_S2000x64_S64x64_S2000x64_1_0_0_1_n_n.rhsIdx_val_of_single rfl i r
theorem right_col (i : S2000x64.Idx) (r : dot_S2000x64_S64x64_S2000x64_1_0_0_1_n_n.contr.Idx) :
    (dot_S2000x64_S64x64_S2000x64_1_0_0_1_n_n.rhsIdx i r 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into a zero accumulator, at entry `(p, q)`: the sum over the 64 columns `k` of the left
    operand at `(p, k)` times the right at `(k, q)`. -/
theorem product_at (l : FVec Ideal S2000x64 .bf16) (r : FVec Ideal S64x64 .bf16) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact left_row _ _
    | ⟨1, _⟩ => exact (left_col _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (right_row _ _).trans hk
    | ⟨1, _⟩ => exact right_col _ _)
  rw [el, er]

/-- The body's stored value at row `p`, column `q` of a block. -/
theorem dense_at (x : Vec Ideal S2000x64 .f32) (n : Vec Ideal S2000x1 .f32) (w : Vec Ideal S64x64 .f32) (b : Vec Ideal S1x64 .f32)
    (p : Fin 2000) (q : Fin 64) :
    k2_pay1 (F := Ideal) x n w b (ix2 p q)
      = (∑ k : Fin 64, (x (ix2 p k) * n (ix2 p (0 : Fin 1))) * w (ix2 k q)) + b (ix2 (0 : Fin 1) q) := by
  unfold k2_pay1
  simp only [shapeCast_self]
  refine (addf_apply _ _ _).trans ?_
  rw [product_at, broadcastTo_apply b broadcasts_S1x64_S2000x64 (ix2 p q) (ix2 (0 : Fin 1) q) (fun a => by
    match a with
    | ⟨0, _⟩ => rfl
    | ⟨1, _⟩ => rfl)]
  refine congrArg (· + b (ix2 (0 : Fin 1) q)) (Finset.sum_congr rfl fun k _ => ?_)
  -- narrowing to the shorter format changes nothing over the extended reals
  show x (ix2 p k) * broadcastTo S2000x64 n broadcasts_S2000x1_S2000x64 (ix2 p k) * w (ix2 k q) = _
  rw [broadcastTo_apply n broadcasts_S2000x1_S2000x64 (ix2 p k) (ix2 p (0 : Fin 1)) (fun a => by
    match a with
    | ⟨0, _⟩ => rfl
    | ⟨1, _⟩ => rfl)]

/-- The five index maps over the 50 points: the feature, factor and result blocks of point `t` sit at block row `t`,
    block column 0; the matrix and the bias row are block `(0, 0)` at every point. -/
theorem block_rows : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0
    ∧ win2_4.index t (0 : Fin 2) = t.val :=
  (by decide +kernel : ∀ t : Fin grid2.N, _)

/-- What point `t` writes back is block `t` of the dense layer of the row-scaled features. -/
theorem written_back (c : Dev nD) (t : Fin cfg2.N) :
    (dat2 V c).flushed 4 t
      = ((cfg2.win 4).blk t).view.read (Elt Ideal)
          (dense (scaleRows (V c main_v31) (V c main_v8)) (V c main_arg3) (V c main_v32)) := by
  show (cfg2.win 4).cut (grid2.coords t) ((dat2 V c).after 4 t) = _
  rw [after2_4]
  unfold out2_4
  rw [View.canon_unit_zero origin]
  simp only [View.ld_unit_zero (S := S2000x64) origin, View.ld_unit_zero (S := S2000x1) origin,
    View.ld_unit_zero (S := S64x64) origin, View.ld_unit_zero (S := S1x64) origin]
  funext j
  obtain ⟨p, q, rfl⟩ : ∃ (p : Fin 2000) (q : Fin 64), j = ix2 p q := ⟨j 0, j 1, eq_ix2 j⟩
  refine (dense_at (iblk2 V c 0 t) (iblk2 V c 1 t) (iblk2 V c 2 t) (iblk2 V c 3 t) p q).trans ?_
  obtain ⟨e0, e1, e2, e3, e4, e5, e6, e7, e8, e9⟩ := block_rows t
  show (∑ k : Fin 64, feats V c (((cfg2.win 0).blk t).view.emb (ix2 p k)) * factors V c (((cfg2.win 1).blk t).view.emb (ix2 p (0 : Fin 1)))
          * weights V c (((cfg2.win 2).blk t).view.emb (ix2 k q))) + bias V c (((cfg2.win 3).blk t).view.emb (ix2 (0 : Fin 1) q))
     = (∑ k : Fin 64, feats V c (ix2 ((((cfg2.win 4).blk t).view.emb (ix2 p q)) 0) k)
            * factors V c (ix2 ((((cfg2.win 4).blk t).view.emb (ix2 p q)) 0) (0 : Fin 1))
          * weights V c (ix2 k ((((cfg2.win 4).blk t).view.emb (ix2 p q)) 1)))
        + bias V c (ix2 (0 : Fin 1) ((((cfg2.win 4).blk t).view.emb (ix2 p q)) 1))
  -- the feature block's row p is the array's row of the result entry, whatever the column k
  have hx : ∀ k : Fin 64, ((cfg2.win 0).blk t).view.emb (ix2 p k) = ix2 ((((cfg2.win 4).blk t).view.emb (ix2 p q)) 0) k := fun k => by
    funext a; apply Fin.ext
    match a with
    | ⟨0, _⟩ => show win2_0.index t (0 : Fin 2) * 2000 + 1 * p.val = win2_4.index t (0 : Fin 2) * 2000 + 1 * p.val; omega
    | ⟨1, _⟩ => show win2_0.index t (1 : Fin 2) * 64 + 1 * k.val = k.val; omega
  have hn : ((cfg2.win 1).blk t).view.emb (ix2 p (0 : Fin 1))
      = ix2 ((((cfg2.win 4).blk t).view.emb (ix2 p q)) 0) (0 : Fin 1) := by
    funext a; apply Fin.ext
    match a with
    | ⟨0, _⟩ => show win2_1.index t (0 : Fin 2) * 2000 + 1 * p.val = win2_4.index t (0 : Fin 2) * 2000 + 1 * p.val; omega
    | ⟨1, _⟩ => show win2_1.index t (1 : Fin 2) * 1 + 1 * 0 = 0; omega
  -- the matrix and the bias row are read whole: their block is the array
  have hw : ∀ k : Fin 64, ((cfg2.win 2).blk t).view.emb (ix2 k q) = ix2 k ((((cfg2.win 4).blk t).view.emb (ix2 p q)) 1) := fun k => by
    funext a; apply Fin.ext
    match a with
    | ⟨0, _⟩ => show win2_2.index t (0 : Fin 2) * 64 + 1 * k.val = k.val; omega
    | ⟨1, _⟩ => show win2_2.index t (1 : Fin 2) * 64 + 1 * q.val = win2_4.index t (1 : Fin 2) * 64 + 1 * q.val; omega
  have hb : ((cfg2.win 3).blk t).view.emb (ix2 (0 : Fin 1) q) = ix2 (0 : Fin 1) ((((cfg2.win 4).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 64 + 1 * q.val = win2_4.index t (1 : Fin 2) * 64 + 1 * q.val; omega
  rw [hn, hb]
  refine congrArg (· + _) (Finset.sum_congr rfl fun k _ => ?_)
  rw [hx k, hw k]
  rfl

/-- An index lies in point `t`'s result block iff each coordinate lies in the block's range on its axis. -/
theorem in_block (t : Fin cfg2.N) (i : S100000x64.Idx) :
    i ∈ ((cfg2.win 4).blk t).view.set ↔ ∀ a : Fin 2, win2_4.index t a * S2000x64.size a ≤ (i a).val
      ∧ (i a).val < win2_4.index t a * S2000x64.size a + S2000x64.size a := by
  show i ∈ ((View.whole main_v33).slice (win2_4.rect t)).set ↔ _
  rw [View.set_slice_whole, Rect.mem_set_unit]
  exact Iff.rfl

/-- Row `r` lies in the block of point `r / 2000`: the 50 blocks tile the 100000 rows. -/
theorem tiled (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ : ∃ t : Fin cfg2.N, t.val = (i 0).val / 2000 :=
    ⟨⟨(i 0).val / 2000, by show (i 0).val / 2000 < grid2.N; rw [N_2]; omega⟩, rfl⟩
  obtain ⟨e0, e1, e2, e3, e4, e5, e6, e7, e8, e9⟩ := block_rows t
  refine ⟨t, flush2_4 t, ?_⟩
  rw [in_block]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 64 ≤ (i 1).val ∧ (i 1).val < win2_4.index t (1 : Fin 2) * 64 + 64; omega

/-- After the last call its result array is the dense layer (the matrix and bias row it found) of the aggregate it
    found, each row scaled by the factor it found for that row. -/
theorem result (c : Dev nD) : (dat2 V c).arrAt 4 cfg2.N
    = dense (scaleRows (V c main_v31) (V c main_v8)) (V c main_arg3) (V c main_v32) :=
  (dat2 V c).arrAt_eq_of_cover 4 _ (fun t _ => written_back V c t) tiled

end Cert.KernelIdeal.DenseLast

end
-- ==== Proof.KernelFold.lean ====
/-
  The program's result as one term of its five arguments.

  The program runs three calls among stretches of host operations. Reading its buffers at the six boundaries in order:
  the first stretch computes, from the destination indices alone, the column `n` of per-node factors and the column of
  their squares; the first call scales the rows of the input features by `n`; the second stretch aggregates that over the
  edges; the second call scales the rows of the aggregate by the squares; the third stretch aggregates again and lays
  the bias out as a row; the last call scales by `n` and applies the dense layer. Every buffer a later item reads is
  either written by exactly one earlier item (then it holds that item's value) or by none (then it holds what it held
  before): the lemmas below walk each one back to the launch memory.
-/
import proofs.«106002_j90108413870524_1_alg».proof.Proof.Gen.KernelIdeal.Frame
import proofs.«106002_j90108413870524_1_alg».proof.Proof.ScaleFirst
import proofs.«106002_j90108413870524_1_alg».proof.Proof.ScaleSecond
import proofs.«106002_j90108413870524_1_alg».proof.Proof.DenseLast
import Idealize.ShloMosaic.Lib.StableHlo.Run

set_option maxRecDepth 16384

noncomputable section

namespace Cert.KernelIdeal.Fold

open Cert.KernelIdeal Cert.KernelIdeal.Gen NeighbourRounds
open Idealize.ShloMosaic Idealize.ShloMosaic.TcCoe Idealize.SL.Sem Idealize.ShloMosaic.StableHlo

/-! ## The host stretches' terms -/

section Terms
variable {F : FTy → Type} [FloatOps F]

/-- The per-node factor column: the in-degree of each node (ones added up at the destination indices), raised to at
    least one, to the power -1/2. -/
def factorCol (dst : (⟨S1000000, .i32⟩ : BufTy).Contents (Elt F)) : (⟨S100000x1, .f32⟩ : BufTy).Contents (Elt F) :=
  broadcastInDim S100000x1 ![0] bcast_S100000_S100000x1_0
    (Host.powf
      (maximumf
        (Host.scatterAdd scatter_S100000_S1000000x1_S1000000_n_0_0_1
          (broadcastInDim S100000 ![] bcast_S_S100000 (constant S_ .f32 0x00000000#32))
          (broadcastInDim S1000000x1 ![0] bcast_S1000000_S1000000x1_0 dst)
          (broadcastInDim S1000000 ![] bcast_S_S1000000 (constant S_ .f32 0x3F800000#32)))
        (broadcastInDim S100000 ![] bcast_S_S100000 (constant S_ .f32 0x3F800000#32)))
      (broadcastInDim S100000 ![] bcast_S_S100000 (constant S_ .f32 0xBF000000#32)))

/-- One aggregation over the edges: the rows of `x` at the source indices (a negative index counted from the end),
    added up at the destination indices into zeros. -/
def aggregate (x : (⟨S100000x64, .f32⟩ : BufTy).Contents (Elt F)) (src dst : (⟨S1000000, .i32⟩ : BufTy).Contents (Elt F)) :
    (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (Host.gather gather_S100000x64_S1000000x1_S1000000x64_1_0_n_n_0_1_164 x
      (broadcastInDim S1000000x1 ![0] bcast_S1000000_S1000000x1_0
        (select
          (cmpi .slt src (broadcastInDim S1000000 ![] bcast_S_S1000000 (constantI S_ 32 0#32)))
          (addi src (broadcastInDim S1000000 ![] bcast_S_S1000000 (constantI S_ 32 100000#32)))
          src)))

/-- The 64 bias entries laid out as a 1×64 row. -/
def biasRow (b : (⟨S64, .f32⟩ : BufTy).Contents (Elt F)) : (⟨S1x64, .f32⟩ : BufTy).Contents (Elt F) :=
  shapeCast S1x64 b shapeCasts_S64_S1x64

end Terms

variable (m : (ℓ : Loc nD τ sig) → Buf (Elt Ideal) ℓ) (ρ : Dev nD → PrngReg)

/-! ## The values along the run, as terms of the launch memory -/

/-- The factor column. -/
def col (c : Dev nD) : Factor.Idx → EReal := factorCol (m ((c : Thread nD τ).loc main_arg2))
/-- The column of squared factors. -/
def colSq (c : Dev nD) : Factor.Idx → EReal := fun j => col m c j * col m c j
/-- The first call's result. -/
def scaled0 (c : Dev nD) : Feat.Idx → EReal := scaleRows (m ((c : Thread nD τ).loc main_arg0)) (col m c)
/-- The first aggregate. -/
def agg0 (c : Dev nD) : Feat.Idx → EReal :=
  aggregate (scaled0 m c) (m ((c : Thread nD τ).loc main_arg1)) (m ((c : Thread nD τ).loc main_arg2))
/-- The second call's result. -/
def scaled1 (c : Dev nD) : Feat.Idx → EReal := scaleRows (agg0 m c) (colSq m c)
/-- The second aggregate. -/
def agg1 (c : Dev nD) : Feat.Idx → EReal :=
  aggregate (scaled1 m c) (m ((c : Thread nD τ).loc main_arg1)) (m ((c : Thread nD τ).loc main_arg2))
/-- The program's result. -/
def out (c : Dev nD) : Feat.Idx → EReal :=
  dense (scaleRows (agg1 m c) (col m c)) (m ((c : Thread nD τ).loc main_arg3)) (biasRow (m ((c : Thread nD τ).loc main_arg4)))

/-- No operation of the stretch at hand writes the buffer at hand: the stretch's written buffers, listed, each differ
    from it. -/
macro "not_written" : tactic => `(tactic| (
  refine List.forall_iff_forall_mem.mp ?_
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first stretch -/

theorem W1_arg0 (c : Dev nD) : W1 m ρ c (Proc.devRef .tc main_arg0) = m ((c : Thread nD τ).loc main_arg0) :=
  StableHlo.after_of_forall_not_mem (b := Proc.devRef .tc main_arg0) _ _ (by not_written)
theorem W1_arg1 (c : Dev nD) : W1 m ρ c (Proc.devRef .tc main_arg1) = m ((c : Thread nD τ).loc main_arg1) :=
  StableHlo.after_of_forall_not_mem (b := Proc.devRef .tc main_arg1) _ _ (by not_written)
theorem W1_arg2 (c : Dev nD) : W1 m ρ c (Proc.devRef .tc main_arg2) = m ((c : Thread nD τ).loc main_arg2) :=
  StableHlo.after_of_forall_not_mem (b := Proc.devRef .tc main_arg2) _ _ (by not_written)
theorem W1_arg3 (c : Dev nD) : W1 m ρ c (Proc.devRef .tc main_arg3) = m ((c : Thread nD τ).loc main_arg3) :=
  StableHlo.after_of_forall_not_mem (b := Proc.devRef .tc main_arg3) _ _ (by not_written)
theorem W1_arg4 (c : Dev nD) : W1 m ρ c (Proc.devRef .tc main_arg4) = m ((c : Thread nD τ).loc main_arg4) :=
  StableHlo.after_of_forall_not_mem (b := Proc.devRef .tc main_arg4) _ _ (by not_written)

theorem W1_v8 (c : Dev nD) : W1 m ρ c (Proc.devRef .tc main_v8) = col m c := by
  show StableHlo.after hostOps0 (W0 m ρ c) (Proc.devRef .tc main_v8) = _
  dsimp only [hostOps0]
  after_results
  rfl
theorem W1_v9 (c : Dev nD) : W1 m ρ c (Proc.devRef .tc main_v9) = colSq m c := by
  show StableHlo.after hostOps0 (W0 m ρ c) (Proc.devRef .tc main_v9) = _
  dsimp only [hostOps0]
  after_results
  rfl

/-! ## After the first call: its result is the row-scaled features; it writes nothing else -/

theorem W2_v10 (c : Dev nD) : W2 m ρ c (Proc.devRef .tc main_v10) = scaled0 m c := by
  rw [show W2 m ρ c (Proc.devRef .tc main_v10) = (dat0 (V1 m ρ) c).arrAt 2 cfg0.N from W2_arr m ρ c 2,
    ScaleFirst.result (V1 m ρ) c]
  show scaleRows (W1 m ρ c (Proc.devRef .tc main_arg0)) (W1 m ρ c (Proc.devRef .tc main_v8)) = _
  rw [W1_arg0, W1_v8]
  rfl
/-- The factor column is one of the call's input arrays: a call leaves its inputs as it found them. -/
theorem W2_v8 (c : Dev nD) : W2 m ρ c (Proc.devRef .tc main_v8) = col m c :=
  (W2_arr m ρ c 1).trans (((dat0 (V1 m ρ) c).arrAt_in 1 rfl _).trans ((A_eq0 (V1 m ρ) c 1).trans (W1_v8 m ρ c)))
theorem W2_v9 (c : Dev nD) : W2 m ρ c (Proc.devRef .tc main_v9) = colSq m c :=
  (W2_of_ne m ρ c main_v9 (by decide)).trans (W1_v9 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)

/-! ## After the second stretch: the first aggregate -/

theorem W3_v20 (c : Dev nD) : W3 m ρ c (Proc.devRef .tc main_v20) = agg0 m c := by
  show StableHlo.after hostOps1 (W2 m ρ c) (Proc.devRef .tc main_v20) = _
  dsimp only [hostOps1]
  after_results
  rw [W2_v10, W2_arg1, W2_arg2]
  rfl
theorem W3_v8 (c : Dev nD) : W3 m ρ c (Proc.devRef .tc main_v8) = col m c :=
  (StableHlo.after_of_forall_not_mem (b := Proc.devRef .tc main_v8) _ _ (by not_written)).trans (W2_v8 m ρ c)
theorem W3_v9 (c : Dev nD) : W3 m ρ c (Proc.devRef .tc main_v9) = colSq m c :=
  (StableHlo.after_of_forall_not_mem (b := Proc.devRef .tc main_v9) _ _ (by not_written)).trans (W2_v9 m ρ c)
theorem W3_arg1 (c : Dev nD) : W3 m ρ c (Proc.devRef .tc main_arg1) = m ((c : Thread nD τ).loc main_arg1) :=
  (StableHlo.after_of_forall_not_mem (b := Proc.devRef .tc main_arg1) _ _ (by not_written)).trans (W2_arg1 m ρ c)
theorem W3_arg2 (c : Dev nD) : W3 m ρ c (Proc.devRef .tc main_arg2) = m ((c : Thread nD τ).loc main_arg2) :=
  (StableHlo.after_of_forall_not_mem (b := Proc.devRef .tc main_arg2) _ _ (by not_written)).trans (W2_arg2 m ρ c)
theorem W3_arg3 (c : Dev nD) : W3 m ρ c (Proc.devRef .tc main_arg3) = m ((c : Thread nD τ).loc main_arg3) :=
  (StableHlo.after_of_forall_not_mem (b := Proc.devRef .tc main_arg3) _ _ (by not_written)).trans (W2_arg3 m ρ c)
theorem W3_arg4 (c : Dev nD) : W3 m ρ c (Proc.devRef .tc main_arg4) = m ((c : Thread nD τ).loc main_arg4) :=
  (StableHlo.after_of_forall_not_mem (b := Proc.devRef .tc main_arg4) _ _ (by not_written)).trans (W2_arg4 m ρ c)

/-! ## After the second call: the aggregate's rows scaled by the squared factors -/

theorem W4_v21 (c : Dev nD) : W4 m ρ c (Proc.devRef .tc main_v21) = scaled1 m c := by
  rw [show W4 m ρ c (Proc.devRef .tc main_v21) = (dat1 (V3 m ρ) c).arrAt 2 cfg1.N from W4_arr m ρ c 2,
    ScaleSecond.result (V3 m ρ) c]
  show scaleRows (W3 m ρ c (Proc.devRef .tc main_v20)) (W3 m ρ c (Proc.devRef .tc main_v9)) = _
  rw [W3_v20, W3_v9]
  rfl
theorem W4_v8 (c : Dev nD) : W4 m ρ c (Proc.devRef .tc main_v8) = col m c :=
  (W4_of_ne m ρ c main_v8 (by decide)).trans (W3_v8 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)

/-! ## After the third stretch: the second aggregate, and the bias as a row -/

theorem W5_v31 (c : Dev nD) : W5 m ρ c (Proc.devRef .tc main_v31) = agg1 m c := by
  show StableHlo.after hostOps2 (W4 m ρ c) (Proc.devRef .tc main_v31) = _
  dsimp only [hostOps2]
  after_results
  rw [W4_v21, W4_arg1, W4_arg2]
  rfl
theorem W5_v32 (c : Dev nD) : W5 m ρ c (Proc.devRef .tc main_v32) = biasRow (m ((c : Thread nD τ).loc main_arg4)) := by
  show StableHlo.after hostOps2 (W4 m ρ c) (Proc.devRef .tc main_v32) = _
  dsimp only [hostOps2]
  after_results
  rw [W4_arg4]
  rfl
theorem W5_v8 (c : Dev nD) : W5 m ρ c (Proc.devRef .tc main_v8) = col m c :=
  (StableHlo.after_of_forall_not_mem (b := Proc.devRef .tc main_v8) _ _ (by not_written)).trans (W4_v8 m ρ c)
theorem W5_arg3 (c : Dev nD) : W5 m ρ c (Proc.devRef .tc main_arg3) = m ((c : Thread nD τ).loc main_arg3) :=
  (StableHlo.after_of_forall_not_mem (b := Proc.devRef .tc main_arg3) _ _ (by not_written)).trans (W4_arg3 m ρ c)

/-! ## The result -/

/-- The result buffer at the last boundary is `out` of the launch memory. -/
theorem W6_v33 (c : Dev nD) : W6 m ρ c (Proc.devRef .tc main_v33) = out m c := by
  rw [show W6 m ρ c (Proc.devRef .tc main_v33) = (dat2 (V5 m ρ) c).arrAt 4 cfg2.N from W6_arr m ρ c 4,
    DenseLast.result (V5 m ρ) c]
  show dense (scaleRows (W5 m ρ c (Proc.devRef .tc main_v31)) (W5 m ρ c (Proc.devRef .tc main_v8)))
      (W5 m ρ c (Proc.devRef .tc main_arg3)) (W5 m ρ c (Proc.devRef .tc main_v32)) = _
  rw [W5_v31, W5_v8, W5_arg3, W5_v32]
  rfl

end Cert.KernelIdeal.Fold

end
-- ==== Proof.RefSide.lean ====
/-
  The reference program's result as a term of its five arguments, in the same words as the specification.

  The reference scales the rows of the features by the factor column `n`, aggregates over the edges, scales by `n` twice
  in a row, aggregates again, scales by `n` once more, and applies the dense layer: a contraction of the 64 columns
  against the matrix plus the bias, the bias broadcast to a row and then down the rows. Each of its multiplications by
  the broadcast column is `scaleRows` (the broadcast reads entry `(r, 0)` of the column at row `r`, whatever the
  column), and its last two operations are `dense`.
-/
import proofs.«106002_j90108413870524_1_alg».proof.Proof.Gen.ReferenceIdeal.Run
import proofs.«106002_j90108413870524_1_alg».proof.Proof.Gen.ReferenceIdeal.Read
import proofs.«106002_j90108413870524_1_alg».proof.Proof.Spec
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.Read NeighbourRounds
open Idealize.ShloMosaic Idealize.ShloMosaic.TcCoe Idealize.ShloMosaic.ValueIdx Idealize.SL.Sem

section Terms
variable {F : FTy → Type} [FloatOps F]

/-- One aggregation over the edges, in the reference's operations: the rows of `x` at the source indices (a negative
    index counted from the end), added up at the destination indices into zeros. -/
def aggregate (x : (⟨S100000x64, .f32⟩ : BufTy).Contents (Elt F)) (src dst : (⟨S1000000, .i32⟩ : BufTy).Contents (Elt F)) :
    (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    (Host.gather gather_S100000x64_S1000000x1_S1000000x64_1_0_n_n_0_1_164 x
      (broadcastInDim S1000000x1 ![0] bcast_S1000000_S1000000x1_0
        (select
          (cmpi .slt src (broadcastInDim S1000000 ![] bcast_S_S1000000 (constantI S_ 32 0#32)))
          (addi src (broadcastInDim S1000000 ![] bcast_S_S1000000 (constantI S_ 32 100000#32)))
          src)))

end Terms

variable (x0 : (⟨S100000x64, .f32⟩ : BufTy).Contents (Elt Ideal)) (x1 x2 : (⟨S1000000, .i32⟩ : BufTy).Contents (Elt Ideal))
  (x3 : (⟨S64x64, .f32⟩ : BufTy).Contents (Elt Ideal)) (x4 : (⟨S64, .f32⟩ : BufTy).Contents (Elt Ideal))

/-- The factor column the reference computes from the destination indices. -/
abbrev col : Factor.Idx → EReal := val_main_v8 (F := Ideal) x2

/-- The column broadcast along the 64 columns reads, at `(r, c)`, the column's entry `(r, 0)`. -/
theorem bcast_idx (i : S100000x64.Idx) : idx_main_v9 i = ix2 (i 0) (0 : Fin 1) :=
  funext fun a => by match a with | ⟨0, _⟩ => rfl | ⟨1, _⟩ => rfl

/-- The first scaling. -/
theorem first_scaled : val_main_v10 (F := Ideal) x0 x2 = scaleRows x0 (col x2) := by
  funext i
  rw [val_main_v10_apply, val_main_v9_apply, bcast_idx]
  rfl

/-- The first aggregate. -/
theorem first_agg : val_main_v20 (F := Ideal) x0 x1 x2 = aggregate (scaleRows x0 (col x2)) x1 x2 := by
  rw [← first_scaled]; rfl

/-- The two scalings between the aggregations. -/
theorem twice_scaled : val_main_v24 (F := Ideal) x0 x1 x2
    = scaleRows (scaleRows (aggregate (scaleRows x0 (col x2)) x1 x2) (col x2)) (col x2) := by
  rw [← first_agg]
  funext i
  rw [val_main_v24_apply, val_main_v23_apply, val_main_v22_apply, val_main_v21_apply]
  show val_main_v20 (F := Ideal) x0 x1 x2 i * val_main_v8 (F := Ideal) x2 (idx_main_v9 i) * val_main_v8 (F := Ideal) x2 (idx_main_v9 i) = _
  rw [bcast_idx]
  rfl

/-- The second aggregate. -/
theorem second_agg : val_main_v34 (F := Ideal) x0 x1 x2
    = aggregate (scaleRows (scaleRows (aggregate (scaleRows x0 (col x2)) x1 x2) (col x2)) (col x2)) x1 x2 := by
  rw [← twice_scaled]; rfl

/-- The last scaling. -/
theorem last_scaled : val_main_v36 (F := Ideal) x0 x1 x2
    = scaleRows (aggregate (scaleRows (scaleRows (aggregate (scaleRows x0 (col x2)) x1 x2) (col x2)) (col x2)) x1 x2) (col x2) := by
  rw [← second_agg]
  funext i
  rw [val_main_v36_apply, val_main_v35_apply]
  show val_main_v34 (F := Ideal) x0 x1 x2 i * val_main_v8 (F := Ideal) x2 (idx_main_v9 i) = _
  rw [bcast_idx]
  rfl

/-- The bias as the reference lays it out: entry `c` of the 64 at `(0, c)` of a row. -/
def biasRow : BiasRow.Idx → EReal := val_main_v38 (F := Ideal) x4

/-- The reference's result is the dense layer of the last scaling. -/
theorem result : val_main_v40 (F := Ideal) x0 x1 x2 x3 x4
    = dense (scaleRows (aggregate (scaleRows (scaleRows (aggregate (scaleRows x0 (col x2)) x1 x2) (col x2)) (col x2)) x1 x2) (col x2))
        x3 (biasRow x4) := by
  rw [← last_scaled]
  funext i
  rw [val_main_v40_apply, val_main_v37_apply, val_main_v39_apply]
  have hl : ∀ k : Fin 64, lidx_main_v37 i k = ix2 (i 0) k := fun k =>
    funext fun a => by match a with | ⟨0, _⟩ => rfl | ⟨1, _⟩ => rfl
  have hr : ∀ k : Fin 64, ridx_main_v37 i k = ix2 k (i 1) := fun k =>
    funext fun a => by match a with | ⟨0, _⟩ => rfl | ⟨1, _⟩ => rfl
  have hb : idx_main_v39 i = ix2 (0 : Fin 1) (i 1) :=
    funext fun a => by match a with | ⟨0, _⟩ => rfl | ⟨1, _⟩ => rfl
  simp only [hl, hr, hb]
  rfl

end Cert.ReferenceIdeal.RefValue

end
-- ==== Proof.Bridge.lean ====
/-
  The two programs compute one function of their arguments.

  Both compute the factor column and each aggregation over the edges by the same operations, and lay the bias out at
  the same entries (one as a reshape, the other as a broadcast to a new leading axis of length one). They differ only
  between the two aggregations, where one scales the rows twice by the column and the other once by its entrywise
  square: associativity of the product of extended reals.
-/
import proofs.«106002_j90108413870524_1_alg».proof.Proof.KernelFold
import proofs.«106002_j90108413870524_1_alg».proof.Proof.RefSide

set_option maxRecDepth 16384

noncomputable section

namespace Cert.Proof.Bridge

open NeighbourRounds
open Idealize.ShloMosaic Idealize.ShloMosaic.TcCoe Idealize.ShloMosaic.ValueIdx Idealize.SL.Sem

abbrev FeatArr := (⟨Cert.KernelIdeal.S100000x64, .f32⟩ : BufTy).Contents (Elt Ideal)
abbrev EdgeArr := (⟨Cert.KernelIdeal.S1000000, .i32⟩ : BufTy).Contents (Elt Ideal)
abbrev BiasArr := (⟨Cert.KernelIdeal.S64, .f32⟩ : BufTy).Contents (Elt Ideal)

/-- The two programs aggregate over the edges by the same operations. -/
theorem aggregate_eq (x : FeatArr) (src dst : EdgeArr) :
    Cert.ReferenceIdeal.RefValue.aggregate (F := Ideal) x src dst = Cert.KernelIdeal.Fold.aggregate (F := Ideal) x src dst := rfl

/-- The two programs compute the factor column by the same operations. -/
theorem col_eq (dst : EdgeArr) :
    Cert.ReferenceIdeal.RefValue.col dst = Cert.KernelIdeal.Fold.factorCol (F := Ideal) dst := rfl

/-- Reshaping the 64 bias entries to a 1×64 row and broadcasting them to a new leading axis of length one put entry `c`
    at `(0, c)` alike. -/
theorem biasRow_eq (b : BiasArr) :
    Cert.ReferenceIdeal.RefValue.biasRow b = Cert.KernelIdeal.Fold.biasRow (F := Ideal) b := by
  funext j
  unfold Cert.ReferenceIdeal.RefValue.biasRow Cert.KernelIdeal.Fold.biasRow
  rw [Cert.ReferenceIdeal.Read.val_main_v38_apply]
  refine (shapeCast_apply b Cert.KernelIdeal.Gen.shapeCasts_S64_S1x64 j (Cert.ReferenceIdeal.Read.idx_main_v38 j) ?_).symm
  show ((⟨1, ![64]⟩ : Shape).rowMajor (Cert.ReferenceIdeal.Read.idx_main_v38 j)).val = ((⟨2, ![1, 64]⟩ : Shape).rowMajor j).val
  rw [Shape.rowMajor_val_one, Shape.rowMajor_val_two]
  -- the row coordinate ranges over one value only
  have h0 : (j 0).val < 1 := idx2_lt0 j
  show (j 1).val = (j 0).val * 64 + (j 1).val
  omega

abbrev MatArr := (⟨Cert.KernelIdeal.S64x64, .f32⟩ : BufTy).Contents (Elt Ideal)

/-- THE TWO RESULTS, as terms of the same five arrays, are equal: scaling twice by the column is scaling once by its
    square; everything else is word for word the same. -/
theorem same_function (x0 : FeatArr) (x1 x2 : EdgeArr) (x3 : MatArr) (x4 : BiasArr) :
    dense (scaleRows (Cert.ReferenceIdeal.RefValue.aggregate (F := Ideal)
              (scaleRows (scaleRows (Cert.ReferenceIdeal.RefValue.aggregate (F := Ideal)
                  (scaleRows x0 (Cert.ReferenceIdeal.RefValue.col x2)) x1 x2)
                (Cert.ReferenceIdeal.RefValue.col x2)) (Cert.ReferenceIdeal.RefValue.col x2)) x1 x2)
            (Cert.ReferenceIdeal.RefValue.col x2))
        x3 (Cert.ReferenceIdeal.RefValue.biasRow x4)
      = dense (scaleRows (Cert.KernelIdeal.Fold.aggregate (F := Ideal)
              (scaleRows (Cert.KernelIdeal.Fold.aggregate (F := Ideal)
                  (scaleRows x0 (Cert.KernelIdeal.Fold.factorCol (F := Ideal) x2)) x1 x2)
                (fun j => Cert.KernelIdeal.Fold.factorCol (F := Ideal) x2 j * Cert.KernelIdeal.Fold.factorCol (F := Ideal) x2 j)) x1 x2)
            (Cert.KernelIdeal.Fold.factorCol (F := Ideal) x2))
        x3 (Cert.KernelIdeal.Fold.biasRow (F := Ideal) x4) := by
  rw [scaleRows_scaleRows, biasRow_eq]
  rfl

end Cert.Proof.Bridge

end
-- ==== Proof.lean ====
/-
  The certificate of a two-round neighbourhood aggregation with a dense layer, written as three calls among host
  operations, against its plain reference.

  With `n` the column of per-node factors (in-degree raised to at least one, to the power -1/2), the reference computes
  `dense (n · A (n · n · A (n · x)))`: scale the rows of the features `x` by `n`, aggregate over the edges (`A`), scale by
  `n` twice, aggregate, scale by `n`, and apply the dense layer. The program with the three calls computes
  `dense (n · A ((n * n) · A (n · x)))`: its second call scales once by the column of squared factors, and its third call
  does the last scaling and the dense layer together, the contraction on operands narrowed to a shorter float format.
  Over the extended reals the narrowing is the identity, a block product into a zero accumulator is the plain sum, and
  the product is associative, so the two results are one function of the five arguments (`Bridge.same_function`); no
  finiteness of the inputs is needed. The aggregation and the factor column are computed by the same host operations in
  both programs and stay opaque throughout.

  The three frame claims are the generated runs; the idealization rewrote nothing, so `preserves` is trivial.
-/
import proofs.«106002_j90108413870524_1_alg».proof.Defs
import proofs.«106002_j90108413870524_1_alg».proof.Proof.Gen.Kernel
import proofs.«106002_j90108413870524_1_alg».proof.Proof.Gen.Kernel.Frame
import proofs.«106002_j90108413870524_1_alg».proof.Proof.Gen.KernelIdeal
import proofs.«106002_j90108413870524_1_alg».proof.Proof.Gen.KernelIdeal.Frame
import proofs.«106002_j90108413870524_1_alg».proof.Proof.Gen.ReferenceIdeal
import proofs.«106002_j90108413870524_1_alg».proof.Proof.Gen.ReferenceIdeal.Run
import proofs.«106002_j90108413870524_1_alg».proof.Proof.Gen.ReferenceIdeal.Read
import proofs.«106002_j90108413870524_1_alg».proof.Proof.Gen.Pre_finite_inputs
import proofs.«106002_j90108413870524_1_alg».proof.Proof.KernelRun
import proofs.«106002_j90108413870524_1_alg».proof.Proof.KernelFold
import proofs.«106002_j90108413870524_1_alg».proof.Proof.RefSide
import proofs.«106002_j90108413870524_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The program as printed runs, and keeps its arguments. -/
theorem frame_kernel : Cert.frame_Kernel := fun m ρ _ => Cert.Kernel.Gen.frame m ρ

/-- The program read over the extended reals runs, and keeps its arguments. -/
theorem frame_ideal : Cert.frame_KernelIdeal := fun m ρ _ => Cert.KernelIdeal.Gen.frame m ρ

/-- The reference runs, and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the same result array: the program's run
    ends at `Fold.out` of its arguments, the reference's at its last stage, which is the same function of them. -/
theorem algebraic : Cert.algebraic_KernelIdeal_ReferenceIdeal := by
  intro m ρ m' ρ' _ hagree
  refine ⟨fun c => Cert.KernelIdeal.Fold.out m c, ?_, ?_⟩
  · exact (θ_run Cert.KernelIdeal.defs _ _).mono
      (fun r h c => ⟨(h c).1.trans (Cert.KernelIdeal.Fold.W6_v33 m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, Cert.ReferenceIdeal.RefValue.result,
      (hagree c).1, (hagree c).2.1, (hagree c).2.2.1, (hagree c).2.2.2.1, (hagree c).2.2.2.2]
    exact Cert.Proof.Bridge.same_function _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
